-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x256 : Shape := ⟨3, ![32, 2048, 256]⟩
abbrev S32x256x2048 : Shape := ⟨3, ![32, 256, 2048]⟩
abbrev S32x256 : Shape := ⟨2, ![32, 256]⟩
abbrev S_ : Shape := ⟨0, ![]⟩

class Facts : Prop where
  bcast_S_S32x2048x256 : S_.BroadcastsInDim S32x2048x256 (![] : Fin 0 → Fin S32x2048x256.rank)
  reducesTo_S32x2048x256_S_d0_1_2 : S32x2048x256.ReducesTo [0, 1, 2] S_
  h_S_ : 0 < S_.numel
  bcast_S_S32x256x2048 : S_.BroadcastsInDim S32x256x2048 (![] : Fin 0 → Fin S32x256x2048.rank)
  reducesTo_S32x256x2048_S_d0_1_2 : S32x256x2048.ReducesTo [0, 1, 2] S_
  bcast_S_S32x256 : S_.BroadcastsInDim S32x256 (![] : Fin 0 → Fin S32x256.rank)
  reducesTo_S32x256_S_d0_1 : S32x256.ReducesTo [0, 1] S_

variable [Facts]

def fn {F : FTy → Type} [FloatOps F] (main_arg0 : FVec F S32x2048x256 .f32) (main_arg1 : FVec F S32x256x2048 .f32) (main_arg2 : FVec F S32x256 .f32) : IVec S_ 1 :=
  let main_v0 : FVec F S32x2048x256 .f32 := Host.absf main_arg0
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  let main_c : IVec S_ 1 := constantI S_ 1 1#1
  let main_v3 : IVec S_ 1 := (fun x v => Host.reduce IntOp.andi x v reducesTo_S32x2048x256_S_d0_1_2 h_S_) main_v2 main_c
  let main_v4 : FVec F S32x256x2048 .f32 := Host.absf main_arg1
  let main_cst_0 : FVec F S_ .f32 := constant S_ .f32 0x7F800000#32
  let main_v5 : FVec F S32x256x2048 .f32 := broadcastInDim S32x256x2048 ![] bcast_S_S32x256x2048 main_cst_0
  let main_v6 : IVec S32x256x2048 1 := cmpf .olt main_v4 main_v5
  let main_c_1 : IVec S_ 1 := constantI S_ 1 1#1
  let main_v7 : IVec S_ 1 := (fun x v => Host.reduce IntOp.andi x v reducesTo_S32x256x2048_S_d0_1_2 h_S_) main_v6 main_c_1
  let main_v8 : IVec S_ 1 := andi main_v3 main_v7
  let main_v9 : FVec F S32x256 .f32 := Host.absf main_arg2
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  main_v13
-- ==== Kernel.lean ====
abbrev S32x2048x256 : Shape := ⟨3, ![32, 2048, 256]⟩
abbrev S32x256x2048 : Shape := ⟨3, ![32, 256, 2048]⟩
abbrev S32x256 : Shape := ⟨2, ![32, 256]⟩
abbrev S32x256x1 : Shape := ⟨3, ![32, 256, 1]⟩
abbrev S32x256x256 : Shape := ⟨3, ![32, 256, 256]⟩
abbrev S1x2048x256 : Shape := ⟨3, ![1, 2048, 256]⟩
abbrev S1x256x2048 : Shape := ⟨3, ![1, 256, 2048]⟩
abbrev S1x256x1 : Shape := ⟨3, ![1, 256, 1]⟩
abbrev S1x256x256 : Shape := ⟨3, ![1, 256, 256]⟩
abbrev S2048x256 : Shape := ⟨2, ![2048, 256]⟩
abbrev S256x2048 : Shape := ⟨2, ![256, 2048]⟩
abbrev S256x256 : Shape := ⟨2, ![256, 256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S32x2048x256, .f32⟩
  | .hbm, ⟨1, _⟩ => ⟨S32x256x2048, .f32⟩
  | .hbm, ⟨2, _⟩ => ⟨S32x256, .f32⟩
  | .hbm, ⟨3, _⟩ => ⟨S32x256x1, .f32⟩
  | .hbm, ⟨4, _⟩ => ⟨S32x256x256, .f32⟩
  | .local _ .vmem, ⟨0, _⟩ => ⟨S1x2048x256, .f32⟩
  | .local _ .vmem, ⟨1, _⟩ => ⟨S1x2048x256, .f32⟩
  | .local _ .vmem, ⟨2, _⟩ => ⟨S1x256x2048, .f32⟩
  | .local _ .vmem, ⟨3, _⟩ => ⟨S1x256x2048, .f32⟩
  | .local _ .vmem, ⟨4, _⟩ => ⟨S1x256x1, .f32⟩
  | .local _ .vmem, ⟨5, _⟩ => ⟨S1x256x1, .f32⟩
  | .local _ .vmem, ⟨6, _⟩ => ⟨S1x256x256, .f32⟩
  | .local _ .vmem, ⟨7, _⟩ => ⟨S1x256x256, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S32x256_S32x256x1_0_1 : S32x256.BroadcastsInDim S32x256x1 (![0, 1] : Fin 2 → Fin S32x256x1.rank)
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x256 : S256x1.Broadcasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S32x2048x256.size a
  hwx0_0 : ∀ i : grid0.Coords, EltTy.bits .f32 = 32 ∨ (Rect.block (s := S32x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S32x256x2048.size a
  hwx0_1 : ∀ i : grid0.Coords, EltTy.bits .f32 = 32 ∨ (Rect.block (s := S32x256x2048) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S32x256x1.size a
  hwx0_2 : ∀ i : grid0.Coords, EltTy.bits .f32 = 32 ∨ (Rect.block (s := S32x256x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S32x256x256.size a
  hwx0_3 : ∀ i : grid0.Coords, EltTy.bits .f32 = 32 ∨ (Rect.block (s := S32x256x256) S1x256x256.size (cc0_transform_3 i) (hinb0_3 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x256 : Shape := ⟨3, ![32, 2048, 256]⟩
abbrev S32x256x2048 : Shape := ⟨3, ![32, 256, 2048]⟩
abbrev S32x256 : Shape := ⟨2, ![32, 256]⟩
abbrev S32x256x256 : Shape := ⟨3, ![32, 256, 256]⟩
abbrev S32x256x1 : Shape := ⟨3, ![32, 256, 1]⟩

abbrev nBuf : Space → Nat
  | .hbm => 7
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S32x256x2048, .f32⟩
  | .hbm, ⟨2, _⟩ => ⟨S32x256, .f32⟩
  | .hbm, ⟨3, _⟩ => ⟨S32x256x256, .f32⟩
  | .hbm, ⟨4, _⟩ => ⟨S32x256x1, .f32⟩
  | .hbm, ⟨5, _⟩ => ⟨S32x256x256, .f32⟩
  | .hbm, ⟨6, _⟩ => ⟨S32x256x256, .f32⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S32x256_S32x256x1_0_1 : S32x256.BroadcastsInDim S32x256x1 (![0, 1] : Fin 2 → Fin S32x256x1.rank)
  bcast_S32x256x1_S32x256x256_0_1_2 : S32x256x1.BroadcastsInDim S32x256x256 (![0, 1, 2] : Fin 3 → Fin S32x256x256.rank)
  dot_S32x256x2048_S32x2048x256_S32x256x256_2_1_1_2_0_0_wf : DotDims.WF S32x256x2048 S32x2048x256 S32x256x256 [2] [1] [1] [2] [0] [0]

variable [Facts₀]

def dot_S32x256x2048_S32x2048x256_S32x256x256_2_1_1_2_0_0 : DotDims S32x256x2048 S32x2048x256 S32x256x256 where
  lhsContracting := [2]
  rhsContracting := [1]
  lhsNonContracting := [1]
  rhsNonContracting := [2]
  lhsBatch := [0]
  rhsBatch := [0]
  wf := dot_S32x256x2048_S32x2048x256_S32x256x256_2_1_1_2_0_0_wf

class Facts : Prop extends Facts₀ where

variable [Facts]
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BlockPooled.lean ====
/-
  What the kernel body computes from one batch's blocks.  The body loads the batch's states [1, 2048, 256], its
  mapping [1, 256, 2048] and its lengths [1, 256, 1], drops the leading unit axis of each, narrows the first two to
  a shorter float format (the identity on exact values), multiplies mapping by states on the matrix unit into a
  zero accumulator, repeats the lengths' one column along the 256 features, divides, and puts the unit axis back.
  Read at (u, e, d) that is the sum over positions l of mapping[0, e, l] · state[0, l, d], divided by lens[0, e, 0].
-/
import proofs.«136373_j6665789243982_1_alg».proof.Proof.Gen.KernelIdeal.Skeleton
import proofs.«136373_j6665789243982_1_alg».proof.Proof.LibPlainDot
import proofs.«136373_j6665789243982_1_alg».proof.Proof.LibColumnBroadcast
import Idealize.ShloMosaic.Lib.ValueLayout
import Idealize.ShloMosaic.Lib.ValueIdx
import Idealize.ShloMosaic.PureOps.Ideal.Laws

noncomputable section

open scoped BigOperators

namespace Cert.KernelIdeal.BlockPooled

open Cert.KernelIdeal Cert.KernelIdeal.Gen Idealize.ShloMosaic Idealize.ShloMosaic.ValueIdx

/-- The body's product is the plain rows-by-columns one: mapping's columns against the states' rows. -/
theorem dot_plain : dot_S256x2048_S2048x256_S256x256_1_0_0_1_n_n = DotDims.plain 256 2048 256 := rfl

/-- The body's one stored value at (u, e, d). -/
theorem pay_apply (x0 : Vec Ideal S1x2048x256 .f32) (x1 : Vec Ideal S1x256x2048 .f32) (x2 : Vec Ideal S1x256x1 .f32)
    (u : Fin 1) (e d : Fin 256) :
    k0_pay1 (F := Ideal) x0 x1 x2 (ix3 u e d)
      = Ideal.div (∑ l : Fin 2048, x1 (ix3 (0 : Fin 1) e l) * x0 (ix3 (0 : Fin 1) l d)) (x2 (ix3 (0 : Fin 1) e (0 : Fin 1))) := by
  unfold k0_pay1
  rw [shapeCast_ab_1ab_apply, divf_apply]
  refine congrArg₂ Ideal.div ?_ ?_
  · -- the matrix unit into zero is the plain product's sum over the positions
    refine (plain_matmul_zero_apply (M := 256) (K := 2048) (N := 256) none _ _ (ix2 e d)).trans ?_
    refine Finset.sum_congr rfl fun l _ => congrArg₂ (· * ·) ?_ ?_
    · exact shapeCast_1ab_ab_apply x1 shapeCasts_S1x256x2048_S256x2048 e l
    · exact shapeCast_1ab_ab_apply x0 shapeCasts_S1x2048x256_S2048x256 l d
  · -- the lengths' column, repeated along the features, read at its row
    exact (broadcastTo_a1_ab_apply _ _ e d).trans (shapeCast_1ab_ab_apply x2 _ e (0 : Fin 1))

/-- The same at any index of the block, by its coordinates. -/
theorem pay_at (x0 : Vec Ideal S1x2048x256 .f32) (x1 : Vec Ideal S1x256x2048 .f32) (x2 : Vec Ideal S1x256x1 .f32)
    (y : S1x256x256.Idx) :
    k0_pay1 (F := Ideal) x0 x1 x2 y
      = Ideal.div (∑ l : Fin 2048, x1 (ix3 (0 : Fin 1) (y 1) l) * x0 (ix3 (0 : Fin 1) l (y 2))) (x2 (ix3 (0 : Fin 1) (y 1) (0 : Fin 1))) :=
  (congrArg (k0_pay1 (F := Ideal) x0 x1 x2) (eq_ix3 y)).trans (pay_apply x0 x1 x2 (y 0) (y 1) (y 2))

end Cert.KernelIdeal.BlockPooled

end
-- ==== Proof.PooledSpec.lean ====
/-
  Mean pooling of document states over entities.  A document has 2048 positions, each with a 256-feature state;
  an entity is a weighting of the positions (its row of the mapping) and has a length.  For batch b, entity e and
  feature d the pooled value is

      ( ∑ over positions l of  mapping[b, e, l] · state[b, l, d] )  /  lens[b, e]

  on the extended reals: the sum is a finite sum of products, and the quotient is the extended reals' quotient
  (division by zero gives an infinity whose sign is the numerator's, as the exact instance defines it).  Both
  programs compute exactly this: they differ only in how the sum is laid out (one batch at a time through a
  matrix unit against one batched dot product), never in its terms.
-/
import Idealize.ShloMosaic.PureOps.Ideal
import Idealize.ShloMosaic.Lib.ValueIdx

noncomputable section

open scoped BigOperators

namespace Cert.Pooled

open Idealize.ShloMosaic Idealize.ShloMosaic.ValueIdx

/-- The pooled value at batch `b`, entity `e`, feature `d`: the entity's weighted sum of the states' feature `d` over
    the 2048 positions, divided by the entity's length. -/
def pooledAt (state : (⟨3, ![32, 2048, 256]⟩ : Shape).Idx → EReal) (mapping : (⟨3, ![32, 256, 2048]⟩ : Shape).Idx → EReal)
    (lens : (⟨2, ![32, 256]⟩ : Shape).Idx → EReal) (b : Fin 32) (e : Fin 256) (d : Fin 256) : EReal :=
  Ideal.div (∑ l : Fin 2048, mapping (ix3 b e l) * state (ix3 b l d)) (lens (ix2 b e))

/-- The whole pooled array, index by index. -/
def pooled (state : (⟨3, ![32, 2048, 256]⟩ : Shape).Idx → EReal) (mapping : (⟨3, ![32, 256, 2048]⟩ : Shape).Idx → EReal)
    (lens : (⟨2, ![32, 256]⟩ : Shape).Idx → EReal) : (⟨3, ![32, 256, 256]⟩ : Shape).Idx → EReal :=
  fun i => pooledAt state mapping lens (i 0) (i 1) (i 2)

theorem pooled_apply (state : (⟨3, ![32, 2048, 256]⟩ : Shape).Idx → EReal) (mapping : (⟨3, ![32, 256, 2048]⟩ : Shape).Idx → EReal)
    (lens : (⟨2, ![32, 256]⟩ : Shape).Idx → EReal) (i : (⟨3, ![32, 256, 256]⟩ : Shape).Idx) :
    pooled state mapping lens i = pooledAt state mapping lens (i 0) (i 1) (i 2) := rfl

end Cert.Pooled

end
-- ==== Proof.PooledArray.lean ====
/-
  From one batch's block to the whole result array.  The grid has 32 points, one per batch: at point t every window's
  block is batch t of its array (block index (t, 0, 0)), so the three input blocks the body loads are the states, the
  mapping and the lengths of batch t, and what the point writes back is batch t of the pooled array.  The 32 output
  blocks tile the result, so after the run the result array IS the pooled array.  The lengths reach the kernel with a
  trailing unit axis added on the host: entry (b, e, 0) of that array is lens[b, e].
-/
import proofs.«136373_j6665789243982_1_alg».proof.Proof.Gen.KernelIdeal.Value
import proofs.«136373_j6665789243982_1_alg».proof.Proof.BlockPooled
import proofs.«136373_j6665789243982_1_alg».proof.Proof.PooledSpec
import Idealize.ShloMosaic.Lib.Pipeline.Value
import Idealize.ShloMosaic.Lib.StableHlo.Run
import Idealize.ShloMosaic.Lib.Tactic

noncomputable section

open scoped BigOperators

namespace Cert.KernelIdeal.PooledArray

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- At point t every window's block index is (t, 0, 0): the batch. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The states' block at point t is batch t of the states. -/
theorem state_blk (c : Dev nD) (t : Fin cfg0.N) (y : S1x2048x256.Idx) (i : S32x2048x256.Idx)
    (h0 : (i 0).val = t.val) (h1 : (i 1).val = (y 1).val) (h2 : (i 2).val = (y 2).val) :
    (iblk m c 0 t : Vec Ideal S1x2048x256 .f32) y = (m ((c : Thread nD τ).loc main_arg0) : S32x2048x256.Idx → EReal) i := by
  obtain ⟨e0, e1, e2, -⟩ := idx_facts t
  have hy : (y 0).val < 1 := (y 0).isLt
  show V m c main_arg0 (((cfg0.win 0).blk t).view.emb y) = _
  rw [V_main_arg0]
  refine congrArg _ (funext fun a => Fin.ext ?_)
  match a with
  | ⟨0, _⟩ => show win0_0.index t (0 : Fin 3) * 1 + 1 * (y 0).val = (i 0).val; omega
  | ⟨1, _⟩ => show win0_0.index t (1 : Fin 3) * 2048 + 1 * (y 1).val = (i 1).val; omega
  | ⟨2, _⟩ => show win0_0.index t (2 : Fin 3) * 256 + 1 * (y 2).val = (i 2).val; omega

/-- The mapping's block at point t is batch t of the mapping. -/
theorem mapping_blk (c : Dev nD) (t : Fin cfg0.N) (y : S1x256x2048.Idx) (i : S32x256x2048.Idx)
    (h0 : (i 0).val = t.val) (h1 : (i 1).val = (y 1).val) (h2 : (i 2).val = (y 2).val) :
    (iblk m c 1 t : Vec Ideal S1x256x2048 .f32) y = (m ((c : Thread nD τ).loc main_arg1) : S32x256x2048.Idx → EReal) i := by
  obtain ⟨-, -, -, e0, e1, e2, -⟩ := idx_facts t
  have hy : (y 0).val < 1 := (y 0).isLt
  show V m c main_arg1 (((cfg0.win 1).blk t).view.emb y) = _
  rw [V_main_arg1]
  refine congrArg _ (funext fun a => Fin.ext ?_)
  match a with
  | ⟨0, _⟩ => show win0_1.index t (0 : Fin 3) * 1 + 1 * (y 0).val = (i 0).val; omega
  | ⟨1, _⟩ => show win0_1.index t (1 : Fin 3) * 256 + 1 * (y 1).val = (i 1).val; omega
  | ⟨2, _⟩ => show win0_1.index t (2 : Fin 3) * 2048 + 1 * (y 2).val = (i 2).val; omega

/-- The lengths as the region finds them: the argument with a trailing unit axis, added by the one host operation
    before the region. -/
theorem lens_entry (c : Dev nD) :
    (V m c main_v0 : S32x256x1.Idx → EReal)
      = broadcastInDim S32x256x1 ![0, 1] bcast_S32x256_S32x256x1_0_1 (m ((c : Thread nD τ).loc main_arg2)) := by
  dsimp only [Gen.V, Gen.hostOps0]; after_results

/-- Entry (b, e, 0) of that array is lens[b, e]. -/
theorem lens_entry_apply (c : Dev nD) (i : S32x256x1.Idx) (b : Fin 32) (e : Fin 256)
    (h0 : (i 0).val = b.val) (h1 : (i 1).val = e.val) :
    (V m c main_v0 : S32x256x1.Idx → EReal) i = (m ((c : Thread nD τ).loc main_arg2) : S32x256.Idx → EReal) (ix2 b e) := by
  rw [lens_entry]
  exact broadcastInDim_apply _ bcast_S32x256_S32x256x1_0_1 _ i (ix2 b e) (fun a => match a with
    | ⟨0, _⟩ => by show b.val = if (32 : Nat) = 1 then 0 else (i 0).val; rw [if_neg (by decide), h0]
    | ⟨1, _⟩ => by show e.val = if (256 : Nat) = 1 then 0 else (i 1).val; rw [if_neg (by decide), h1])

/-- The lengths' block at point t is batch t's column of lengths. -/
theorem lens_blk (c : Dev nD) (t : Fin cfg0.N) (y : S1x256x1.Idx) (b : Fin 32) (e : Fin 256)
    (h0 : b.val = t.val) (h1 : e.val = (y 1).val) :
    (iblk m c 2 t : Vec Ideal S1x256x1 .f32) y = (m ((c : Thread nD τ).loc main_arg2) : S32x256.Idx → EReal) (ix2 b e) := by
  obtain ⟨-, -, -, -, -, -, e0, e1, e2, -⟩ := idx_facts t
  have hy : (y 0).val < 1 := (y 0).isLt
  show V m c main_v0 (((cfg0.win 2).blk t).view.emb y) = _
  refine lens_entry_apply m c _ b e ?_ ?_
  · show win0_2.index t (0 : Fin 3) * 1 + 1 * (y 0).val = b.val; omega
  · show win0_2.index t (1 : Fin 3) * 256 + 1 * (y 1).val = e.val; omega

/-- The pooled array of the argument arrays as launched. -/
abbrev result (c : Dev nD) : S32x256x256.Idx → EReal :=
  Cert.Pooled.pooled (m ((c : Thread nD τ).loc main_arg0)) (m ((c : Thread nD τ).loc main_arg1)) (m ((c : Thread nD τ).loc main_arg2))

/-- What point t writes back is batch t of the pooled array. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S1x2048x256) hz, View.ld_unit_zero (S := S1x256x2048) hz, View.ld_unit_zero (S := S1x256x1) hz]
  obtain ⟨-, -, -, -, -, -, -, -, -, e0, e1, e2⟩ := idx_facts t
  funext j
  have hj : (j 0).val < 1 := (j 0).isLt
  have k0 : ((((cfg0.win 3).blk t).view.emb j) 0).val = t.val := by
    show win0_3.index t (0 : Fin 3) * 1 + 1 * (j 0).val = t.val; omega
  have k1 : ((((cfg0.win 3).blk t).view.emb j) 1).val = (j 1).val := by
    show win0_3.index t (1 : Fin 3) * 256 + 1 * (j 1).val = (j 1).val; omega
  have k2 : ((((cfg0.win 3).blk t).view.emb j) 2).val = (j 2).val := by
    show win0_3.index t (2 : Fin 3) * 256 + 1 * (j 2).val = (j 2).val; omega
  show k0_pay1 (F := Ideal) (iblk m c 0 t) (iblk m c 1 t) (iblk m c 2 t) j = result m c (((cfg0.win 3).blk t).view.emb j)
  refine (Cert.KernelIdeal.BlockPooled.pay_at _ _ _ j).trans ?_
  show _ = Cert.Pooled.pooledAt _ _ _ _ _ _
  unfold Cert.Pooled.pooledAt
  refine congrArg₂ Ideal.div (Finset.sum_congr rfl fun l _ => congrArg₂ (· * ·) ?_ ?_) ?_
  · exact mapping_blk m c t _ _ k0 k1 rfl
  · exact state_blk m c t _ _ k0 rfl k2
  · exact lens_blk m c t _ _ _ k0 k1

/-- An index of the result array is in point t's block iff each coordinate is in the block's range on its axis. -/
theorem mem_blk (t : Fin cfg0.N) (i : S32x256x256.Idx) :
    i ∈ ((cfg0.win 3).blk t).view.set ↔ ∀ a : Fin 3, win0_3.index t a * S1x256x256.size a ≤ (i a).val ∧ (i a).val < win0_3.index t a * S1x256x256.size a + S1x256x256.size a := by
  show i ∈ ((View.whole main_v1).slice (win0_3.rect t)).set ↔ _
  rw [View.set_slice_whole, Rect.mem_set_unit]
  exact Iff.rfl

/-- Every index (b, e, d) of the result lies in the block of point b. -/
theorem cover (i : S32x256x256.Idx) : ∃ t : Fin cfg0.N, (cfg0.win 3).flush t = true ∧ i ∈ ((cfg0.win 3).blk t).view.set := by
  have hN : cfg0.N = 32 := N_0
  have hi0 : (i 0).val < 32 := (i 0).isLt
  have hi1 : (i 1).val < 256 := (i 1).isLt
  have hi2 : (i 2).val < 256 := (i 2).isLt
  obtain ⟨t, ht⟩ : ∃ t : Fin cfg0.N, t.val = (i 0).val := ⟨⟨(i 0).val, by omega⟩, rfl⟩
  refine ⟨t, flush0_3 t, ?_⟩
  rw [mem_blk]
  obtain ⟨-, -, -, -, -, -, -, -, -, e0, e1, e2⟩ := idx_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 256 ≤ (i 2).val ∧ (i 2).val < win0_3.index t (2 : Fin 3) * 256 + 256; omega

/-- After the run the result array is the pooled array. -/
theorem final (c : Dev nD) : (dats m 0 c).arrAt 3 cfg0.N = result m c :=
  (dats m 0 c).arrAt_eq_of_cover 3 (result m c) (fun t _ => flushed_eq m c t) cover

/-- The kernel's run, read: the result at the pooled array of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.PooledArray

end
-- ==== Proof.RefPooled.lean ====
/-
  The reference program computes the pooled array.  Its four host operations are: one batched dot product of the
  mapping with the states (batch axis b, the positions contracted), the lengths given a trailing unit axis, that
  column repeated along the 256 features, and the quotient.  Read at an index (b, e, d) the dot product is the sum
  over positions l of mapping[b, e, l] · state[b, l, d], the two broadcasts read lens[b, e], and the host's quotient
  is the extended reals' quotient: the pooled value, term for term.
-/
import proofs.«136373_j6665789243982_1_alg».proof.Proof.Gen.ReferenceIdeal.Read
import proofs.«136373_j6665789243982_1_alg».proof.Proof.PooledSpec

noncomputable section

open scoped BigOperators

namespace Cert.ReferenceIdeal.RefPooled

open Cert.ReferenceIdeal Cert.ReferenceIdeal.Read Idealize.ShloMosaic Idealize.ShloMosaic.ValueIdx

/-- The left operand of the batched dot product is read at (b, e, l). -/
theorem lidx_eq (i : S32x256x256.Idx) (l : Fin 2048) : lidx_main_v0 i l = ix3 (i 0) (i 1) l :=
  funext fun a => Fin.ext (by match a with | ⟨0, _⟩ => rfl | ⟨1, _⟩ => rfl | ⟨2, _⟩ => rfl)

/-- The right operand is read at (b, l, d). -/
theorem ridx_eq (i : S32x256x256.Idx) (l : Fin 2048) : ridx_main_v0 i l = ix3 (i 0) l (i 2) :=
  funext fun a => Fin.ext (by match a with | ⟨0, _⟩ => rfl | ⟨1, _⟩ => rfl | ⟨2, _⟩ => rfl)

/-- Through the two broadcasts the divisor at (b, e, d) is the length at (b, e). -/
theorem lens_idx_eq (i : S32x256x256.Idx) : idx_main_v1 (idx_main_v2 i) = ix2 (i 0) (i 1) :=
  funext fun a => Fin.ext (by match a with | ⟨0, _⟩ => rfl | ⟨1, _⟩ => rfl)

/-- The reference's result, as a function of its three arguments, is the pooled array. -/
theorem result_eq (x0 : (⟨S32x2048x256, .f32⟩ : BufTy).Contents (Elt Ideal)) (x1 : (⟨S32x256x2048, .f32⟩ : BufTy).Contents (Elt Ideal))
    (x2 : (⟨S32x256, .f32⟩ : BufTy).Contents (Elt Ideal)) :
    val_main_v3 (F := Ideal) x0 x1 x2 = Cert.Pooled.pooled x0 x1 x2 := by
  funext i
  rw [val_main_v3_apply, val_main_v0_apply, val_main_v2_apply, val_main_v1_apply, Cert.Pooled.pooled_apply]
  simp only [lidx_eq, ridx_eq, lens_idx_eq, Ideal.hostDivf_def]
  rfl

end Cert.ReferenceIdeal.RefPooled

end
-- ==== Proof.lean ====
/-
  Mean pooling of document states over entities: for batch b, entity e and feature d,

      out[b, e, d] = ( ∑ over the 2048 positions l of  mapping[b, e, l] · state[b, l, d] ) / lens[b, e].

  The kernel walks the 32 batches; at each it multiplies the batch's mapping [256, 2048] by its states [2048, 256] on the
  matrix unit (the operands narrowed to a shorter float format first, which changes nothing on exact values) and
  divides row e by lens[b, e].  The reference takes one batched dot product and divides by the lengths repeated along
  the features.  On the extended reals both are the function above, term for term (Proof/PooledSpec.lean): no law of
  arithmetic is needed beyond reading each side at an index, so the inputs' finiteness is never used.

  The parts: the kernel body's stored value at an index (Proof/BlockPooled.lean, over two general lemmas: a plain matrix
  product into zero read at an index, Proof/LibPlainDot.lean, and a column repeated along a row, Proof/LibColumnBroadcast.lean);
  from the 32 blocks to the whole result array (Proof/PooledArray.lean); the reference's four operations read at an index
  (Proof/RefPooled.lean).  The two kernel frames are the generated ones; the reference's frame is its generated run with the
  result dropped; the idealization rewrote nothing, so that conjunct is trivial.
-/
import proofs.«136373_j6665789243982_1_alg».proof.Defs
import proofs.«136373_j6665789243982_1_alg».proof.Proof.Gen.Kernel
import proofs.«136373_j6665789243982_1_alg».proof.Proof.Gen.Kernel.Skeleton
import proofs.«136373_j6665789243982_1_alg».proof.Proof.Gen.Kernel.Launch
import proofs.«136373_j6665789243982_1_alg».proof.Proof.Gen.Kernel.Points
import proofs.«136373_j6665789243982_1_alg».proof.Proof.Gen.Kernel.Frame
import proofs.«136373_j6665789243982_1_alg».proof.Proof.Gen.KernelIdeal
import proofs.«136373_j6665789243982_1_alg».proof.Proof.Gen.KernelIdeal.Skeleton
import proofs.«136373_j6665789243982_1_alg».proof.Proof.Gen.KernelIdeal.Launch
import proofs.«136373_j6665789243982_1_alg».proof.Proof.Gen.KernelIdeal.Points
import proofs.«136373_j6665789243982_1_alg».proof.Proof.Gen.KernelIdeal.Frame
import proofs.«136373_j6665789243982_1_alg».proof.Proof.Gen.ReferenceIdeal
import proofs.«136373_j6665789243982_1_alg».proof.Proof.Gen.Pre_finite_inputs
import proofs.«136373_j6665789243982_1_alg».proof.Proof.Gen.KernelIdeal.Value
import proofs.«136373_j6665789243982_1_alg».proof.Proof.Gen.ReferenceIdeal.Run
import proofs.«136373_j6665789243982_1_alg».proof.Proof.Gen.ReferenceIdeal.Read
import proofs.«136373_j6665789243982_1_alg».proof.Proof.PooledArray
import proofs.«136373_j6665789243982_1_alg».proof.Proof.RefPooled
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on exact values. -/
theorem frame_kernel_ideal : Cert.frame_KernelIdeal := fun m ρ _ => Cert.KernelIdeal.Gen.frame m ρ

/-- The reference's four host operations run and leave its arguments as they were. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the pooled array (the 32 batches' blocks tiling it)
    and the reference's at its four operations' term, which read at an index is the pooled array again. -/
theorem algebraic : Cert.algebraic_KernelIdeal_ReferenceIdeal := by
  intro m ρ m' ρ' _ hagree
  refine ⟨fun c => Cert.KernelIdeal.PooledArray.result m c, Cert.KernelIdeal.PooledArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefPooled.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
